-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S8192x8192 : Shape := ⟨2, ![8192, 8192]⟩
abbrev S8192x256 : Shape := ⟨2, ![8192, 256]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S128x8192 .f32) (main_arg1 : FVec F S8192x8192 .f32) (main_arg2 : FVec F S8192x256 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S128x8192 : Shape := ⟨2, ![128, 8192]⟩
abbrev S8192x8192 : Shape := ⟨2, ![8192, 8192]⟩
abbrev S8192x256 : Shape := ⟨2, ![8192, 256]⟩
abbrev S128x256 : Shape := ⟨2, ![128, 256]⟩
abbrev S256x4096 : Shape := ⟨2, ![256, 4096]⟩
abbrev S256x256 : Shape := ⟨2, ![256, 256]⟩
abbrev S128x4096 : Shape := ⟨2, ![128, 4096]⟩
abbrev S256x128 : Shape := ⟨2, ![256, 128]⟩

abbrev nBuf : Space → Nat
  | .hbm => 4
  | .vmem => 8
  | .smem => 0
  | _ => 0

abbrev bufTy : (tb : Table) → Fin (tcTables nBuf tb) → BufTy
  | .hbm, ⟨0, _⟩ => ⟨S128x8192, .f32⟩
  | .hbm, ⟨1, _⟩ => ⟨S8192x8192, .f32⟩
  | .hbm, ⟨2, _⟩ => ⟨S8192x256, .f32⟩
  | .hbm, ⟨3, _⟩ => ⟨S128x256, .f32⟩
  | .local _ .vmem, ⟨0, _⟩ => ⟨S128x8192, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x256, .f32⟩
  | .local _ .vmem, ⟨6, _⟩ => ⟨S256x256, .f32⟩
  | .local _ .vmem, ⟨7, _⟩ => ⟨S128x256, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_10 : BitVec 32 := 0#32
  let v11 : BitVec 1 := Scalar.cmpi .ne v10 c0_i32_10
  v11

def k0_cond2 (i : grid0.Coords) : BitVec 1 :=
  let arg0 : BitVec 32 := BitVec.ofNat 32 (i 0).val
  let c0_i32_11 : BitVec 32 := 0#32
  let v12 : BitVec 1 := Scalar.cmpi .ne arg0 c0_i32_11
  let v13 : BitVec 32 := Scalar.extui v12
  let c0_i32_12 : BitVec 32 := 0#32
  let v14 : BitVec 1 := Scalar.cmpi .ne v13 c0_i32_12
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S256x4096_S256x4096_0_0 : ∀ a, (![0, 0] : Fin 2 → Nat) a + S256x4096.size a ≤ S256x4096.size a
  h_S256x4096 : 0 < S256x4096.numel
  inb_S128x8192_S128x4096_0_0 : ∀ a, (![0, 0] : Fin 2 → Nat) a + S128x4096.size a ≤ S128x8192.size a
  h_S128x4096 : 0 < S128x4096.numel
  inb_S128x8192_S128x4096_0_4096 : ∀ a, (![0, 4096] : Fin 2 → Nat) a + S128x4096.size a ≤ S128x8192.size a
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  dot_S256x4096_S128x4096_S256x128_1_1_0_0_n_n_wf : DotDims.WF S256x4096 S128x4096 S256x128 [1] [1] [0] [0] [] []
  dot_S256x128_S256x256_S128x256_0_0_1_1_n_n_wf : DotDims.WF S256x128 S256x256 S128x256 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x8192.size a
  hwx0_0 : ∀ i : grid0.Coords, EltTy.bits .f32 = 32 ∨ (Rect.block (s := S128x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x8192.size a
  hwx0_1 : ∀ i : grid0.Coords, EltTy.bits .f32 = 32 ∨ (Rect.block (s := S8192x8192) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x8192.size a
  hwx0_2 : ∀ i : grid0.Coords, EltTy.bits .f32 = 32 ∨ (Rect.block (s := S8192x8192) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x256.size a
  hwx0_3 : ∀ i : grid0.Coords, EltTy.bits .f32 = 32 ∨ (Rect.block (s := S8192x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S256x128_S256x256_S128x256_0_0_1_1_n_n : DotDims S256x128 S256x256 S128x256 where
  lhsContracting := [0]
  rhsContracting := [0]
  lhsNonContracting := [1]
  rhsNonContracting := [1]
  lhsBatch := []
  rhsBatch := []
  wf := dot_S256x128_S256x256_S128x256_0_0_1_1_n_n_wf

abbrev win0_0 : Pipeline.Window sig grid0 :=
  Pipeline.Window.ofSpec (Memref.whole main_arg0) S128x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S128x8192 : Shape := ⟨2, ![128, 8192]⟩
abbrev S8192x8192 : Shape := ⟨2, ![8192, 8192]⟩
abbrev S8192x256 : Shape := ⟨2, ![8192, 256]⟩
abbrev S8192x128 : Shape := ⟨2, ![8192, 128]⟩
abbrev S128x256 : Shape := ⟨2, ![128, 256]⟩

abbrev nBuf : Space → Nat
  | .hbm => 7
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S8192x8192, .f32⟩
  | .hbm, ⟨2, _⟩ => ⟨S8192x256, .f32⟩
  | .hbm, ⟨3, _⟩ => ⟨S8192x128, .f32⟩
  | .hbm, ⟨4, _⟩ => ⟨S8192x128, .f32⟩
  | .hbm, ⟨5, _⟩ => ⟨S128x8192, .f32⟩
  | .hbm, ⟨6, _⟩ => ⟨S128x256, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S128x8192_S8192x128_1_0 : S128x8192.Transposes [1, 0] S8192x128
  transposes_S8192x128_S128x8192_1_0 : S8192x128.Transposes [1, 0] S128x8192
  dot_S8192x8192_S8192x128_S8192x128_1_0_0_1_n_n_wf : DotDims.WF S8192x8192 S8192x128 S8192x128 [1] [0] [0] [1] [] []
  dot_S128x8192_S8192x256_S128x256_1_0_0_1_n_n_wf : DotDims.WF S128x8192 S8192x256 S128x256 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf

class Facts : Prop extends Facts₀ where

variable [Facts]
-- ==== Proof.BitsSetup.lean ====
/-
  The kernel's pipeline, before its body is run: what the TensorCore's arrays hold when the one
  region is entered (the launch contents: @main is the region alone), each window's block of its array at a
  grid point, that an input window's staging buffer holds exactly that block whenever the body runs (the
  feature matrix `x` is fetched once and stays; the two column halves of `adj`'s row block and the row block
  of `weight` are fetched at every point), and the two branch conditions of the body decided over the 32 grid
  points: the first branch (store the partial product) is taken at point 0 only, the second (add it to what
  the output block holds) at every later point.
-/
import proofs.«143368_g88596585382700_cont_9to1c4b_817_7_alg».proof.Proof.Gen.Kernel.Launch
import proofs.«143368_g88596585382700_cont_9to1c4b_817_7_alg».proof.Proof.Gen.Kernel.Skeleton
import proofs.«143368_g88596585382700_cont_9to1c4b_817_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched. -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the region-entry one and whose body leaves the block in place: where the pipeline does not
    fetch, the block index has not moved. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_adjL_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_adjR_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, over the grid -/

/-- The store of the partial product happens at the first point only. -/
theorem hfirst : ∀ t : Fin cfg0.N, k0_cond1 (grid0.coords t) = 1#1 ↔ t.val % 32 = 0 :=
  (by decide +kernel : ∀ t : Fin grid0.N, k0_cond1 (grid0.coords t) = 1#1 ↔ t.val % 32 = 0)

/-- The accumulation happens at every other point. -/
theorem hlater : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)

/-! ## The staging memrefs the body is called with -/

/-- A staging buffer of the output window, through which its contents are stated. -/
abbrev VOut : View sig .tc .vmem S128x256 .f32 := (Memref.whole cc0_stg4_0 : Memref sig .tc .vmem S128x256 .f32).view

abbrev ms_x (t : Fin cfg0.N) : Memref sig .tc .vmem S128x8192 .f32 := win0_0.stage (cfg0.slots t 0)
abbrev hs_x (t : Fin cfg0.N) : (ms_x t).IsWhole := hstage0_0 ((cfg0.slots t 0).cast nbuf0_0)
abbrev ms_adjL (t : Fin cfg0.N) : Memref sig .tc .vmem S256x4096 .f32 := win0_1.stage (cfg0.slots t 1)
abbrev hs_adjL (t : Fin cfg0.N) : (ms_adjL t).IsWhole := hstage0_1 ((cfg0.slots t 1).cast nbuf0_1)
abbrev ms_adjR (t : Fin cfg0.N) : Memref sig .tc .vmem S256x4096 .f32 := win0_2.stage (cfg0.slots t 2)
abbrev hs_adjR (t : Fin cfg0.N) : (ms_adjR t).IsWhole := hstage0_2 ((cfg0.slots t 2).cast nbuf0_2)
abbrev ms_w (t : Fin cfg0.N) : Memref sig .tc .vmem S256x256 .f32 := win0_3.stage (cfg0.slots t 3)
abbrev hs_w (t : Fin cfg0.N) : (ms_w t).IsWhole := hstage0_3 ((cfg0.slots t 3).cast nbuf0_3)
abbrev ms_out (t : Fin cfg0.N) : Memref sig .tc .vmem S128x256 .f32 := win0_4.stage (cfg0.slots t 4)
abbrev hs_out (t : Fin cfg0.N) : (ms_out t).IsWhole := hstage0_4 ((cfg0.slots t 4).cast nbuf0_4)

end Cert.Kernel.Gcn

end
-- ==== Proof.BitsRunFirst.lean ====
/-
  The kernel body run whole at the first grid point, on any whole staging memrefs: the four input buffers at
  their contents, the output buffer at anything. The body loads the two halves of `x` and of `adj`'s row block
  and the `weight` block, and the one store it makes (the branch of point 0) writes the partial product over the
  whole output block; the inputs are handed back as they were. The pieces the store leaves are found by the run.
-/
import proofs.«143368_g88596585382700_cont_9to1c4b_817_7_alg».proof.Proof.BitsSetup

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref at the first point, as pieces, with the proof that
    the body runs to the continuation holding the inputs as they were and the output with those pieces written. -/
noncomputable def runFirst (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) :
    { L : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0__gcn_block i arg1 harg1 arg2 harg2 arg3 harg3 arg4 harg4 arg5 harg5) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Gcn

end
-- ==== Proof.BitsRunLater.lean ====
/-
  The kernel body run whole at a later grid point (any point but the first), on any whole staging memrefs: the
  four input buffers at their contents, the output buffer at its running contents `acc`. The body loads the
  output block, adds the partial product to it and stores the sum over the whole block (the branch of the later
  points); the inputs are handed back as they were. The pieces the store leaves are found by the run.
-/
import proofs.«143368_g88596585382700_cont_9to1c4b_817_7_alg».proof.Proof.BitsSetup

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref at a later point, as pieces, with the proof that
    the body runs to the continuation holding the inputs as they were and the output with those pieces written. -/
noncomputable def runLater (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) :
    { L : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare acc
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0__gcn_block i arg1 harg1 arg2 harg2 arg3 harg3 arg4 harg4 arg5 harg5) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Gcn

end
-- ==== Proof.BitsFrame.lean ====
/-
  The kernel's pipeline data and body obligation. At the first grid point the body stores the partial
  product over the whole output block; at each later point it stores the block's running contents plus that
  point's partial product. So what the output's staging buffer holds after point n is defined by recursion on n
  (`outsAt`): the first case at n = 0, the later case over `outsAt (n - 1)` otherwise — the buffer is written
  back to HBM only after the last point, so between points it keeps what the body left. The input windows'
  buffers hold their blocks throughout. `adj` is handed to the kernel twice (its left and right column halves
  are two windows on one array), so the proof data hold that array at half the full share for each of the two.
-/
import proofs.«143368_g88596585382700_cont_9to1c4b_817_7_alg».proof.Proof.BitsRunFirst
import proofs.«143368_g88596585382700_cont_9to1c4b_817_7_alg».proof.Proof.BitsRunLater

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- The first point's one store covers the output block. -/
theorem cover_first (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) (y : S128x256.Idx) :
    ∃ pc ∈ (runFirst c i arg1 harg1 arg2 harg2 arg3 harg3 arg4 harg4 arg5 harg5 hc1 hc2 x0 x1 x2 x3).1, y ∈ pc.1.set :=
  View.cover_of_tiledL (runFirst c i arg1 harg1 arg2 harg2 arg3 harg3 arg4 harg4 arg5 harg5 hc1 hc2 x0 x1 x2 x3).1 S128x256.size (by sl_kernel_rfl) y

/-- What the first point leaves in the output's staging buffer. -/
def outFirst (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) : Vec F S128x256 .f32 :=
  VOut.read (Elt F) (VOut.writes (Elt F) VOut.junk (runFirst c i arg1 harg1 arg2 harg2 arg3 harg3 arg4 harg4 arg5 harg5 hc1 hc2 x0 x1 x2 x3).1)

/-- A later point's one store covers the output block. -/
theorem cover_later (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) (y : S128x256.Idx) :
    ∃ pc ∈ (runLater c i arg1 harg1 arg2 harg2 arg3 harg3 arg4 harg4 arg5 harg5 hc1 hc2 x0 x1 x2 x3 acc).1, y ∈ pc.1.set :=
  View.cover_of_tiledL (runLater c i arg1 harg1 arg2 harg2 arg3 harg3 arg4 harg4 arg5 harg5 hc1 hc2 x0 x1 x2 x3 acc).1 S128x256.size (by sl_kernel_rfl) y

/-- What a later point leaves in the output's staging buffer, over the running contents `acc`. -/
def outLater (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) : Vec F S128x256 .f32 :=
  VOut.read (Elt F) (VOut.writes (Elt F) VOut.junk (runLater c i arg1 harg1 arg2 harg2 arg3 harg3 arg4 harg4 arg5 harg5 hc1 hc2 x0 x1 x2 x3 acc).1)

/-! ## What the output's staging buffer holds after each point -/

/-- The accumulation: after point 0 the first case's contents, after point n + 1 the later case's over what
    point n left. -/
def outsAt (c : Dev nD) : (n : ℕ) → n < cfg0.N → Vec F S128x256 .f32
  | 0, hn => outFirst c (grid0.coords ⟨0, hn⟩) (ms_x ⟨0, hn⟩) (hs_x ⟨0, hn⟩) (ms_adjL ⟨0, hn⟩) (hs_adjL ⟨0, hn⟩) (ms_adjR ⟨0, hn⟩) (hs_adjR ⟨0, hn⟩) (ms_w ⟨0, hn⟩) (hs_w ⟨0, hn⟩) (ms_out ⟨0, hn⟩) (hs_out ⟨0, hn⟩) ((hfirst ⟨0, hn⟩).mpr (Nat.zero_mod _)) (fun h => (hlater ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 32 = 0 then
      outFirst c (grid0.coords ⟨n + 1, hn⟩) (ms_x ⟨n + 1, hn⟩) (hs_x ⟨n + 1, hn⟩) (ms_adjL ⟨n + 1, hn⟩) (hs_adjL ⟨n + 1, hn⟩) (ms_adjR ⟨n + 1, hn⟩) (hs_adjR ⟨n + 1, hn⟩) (ms_w ⟨n + 1, hn⟩) (hs_w ⟨n + 1, hn⟩) (ms_out ⟨n + 1, hn⟩) (hs_out ⟨n + 1, hn⟩) ((hfirst ⟨n + 1, hn⟩).mpr h0) (fun h => (hlater ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms_x ⟨n + 1, hn⟩) (hs_x ⟨n + 1, hn⟩) (ms_adjL ⟨n + 1, hn⟩) (hs_adjL ⟨n + 1, hn⟩) (ms_adjR ⟨n + 1, hn⟩) (hs_adjR ⟨n + 1, hn⟩) (ms_w ⟨n + 1, hn⟩) (hs_w ⟨n + 1, hn⟩) (ms_out ⟨n + 1, hn⟩) (hs_out ⟨n + 1, hn⟩) (fun h => h0 ((hfirst ⟨n + 1, hn⟩).mp h)) ((hlater ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_first (c : Dev nD) (t : Fin cfg0.N) (h0 : t.val % 32 = 0) :
    outsAt m c t.val t.isLt = outFirst c (grid0.coords t) (ms_x t) (hs_x t) (ms_adjL t) (hs_adjL t) (ms_adjR t) (hs_adjR t) (ms_w t) (hs_w t) (ms_out t) (hs_out t) ((hfirst t).mpr h0) (fun h => (hlater t).mp h h0) (iblk m c 0 t) (iblk m c 1 t) (iblk m c 2 t) (iblk m c 3 t) := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = outLater c (grid0.coords t) (ms_x t) (hs_x t) (ms_adjL t) (hs_adjL t) (ms_adjR t) (hs_adjR t) (ms_w t) (hs_w t) (ms_out t) (hs_out t) (fun h => h0 ((hfirst t).mp h)) ((hlater t).mpr h0) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    buffer at its block and the output's at `outsAt`; the invariant the core's scoped buffers that are no staging
    buffer; nothing owed; `x` and `weight` at the full share, `adj` at one half for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_adjL (c : Dev nD) (t : Fin cfg0.N) : (dats m 0 c).after 1 t = iblk m c 1 t := by dsimp only [dats]
theorem after_adjR (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_out (c : Dev nD) (t : Fin cfg0.N) : (dats m 0 c).after 4 t = (outsAt m c t.val t.isLt) := by dsimp only [dats]

theorem before_x (c : Dev nD) (t : Fin cfg0.N) (d) : (dats m 0 c).before 0 t d = iblk m c 0 t :=
  before_x_of m (dats m 0 c) (A_eq m c 0) (after_x m c) t d
theorem before_adjL (c : Dev nD) (t : Fin cfg0.N) (d) : (dats m 0 c).before 1 t d = iblk m c 1 t :=
  before_adjL_of m (dats m 0 c) (A_eq m c 1) (after_adjL m c) t d
theorem before_adjR (c : Dev nD) (t : Fin cfg0.N) (d) : (dats m 0 c).before 2 t d = iblk m c 2 t :=
  before_adjR_of m (dats m 0 c) (A_eq m c 2) (after_adjR m c) t d
theorem before_w (c : Dev nD) (t : Fin cfg0.N) (d) : (dats m 0 c).before 3 t d = iblk m c 3 t :=
  before_w_of m (dats m 0 c) (A_eq m c 3) (after_w m c) t d

/-- The output window is live at every grid point: one of the body's two branches stores into it. -/
theorem idle_out : ∀ i : grid0.Coords, cfg0.idle 4 i = false :=
  (by decide +kernel : ∀ i : grid0.Coords, idle0 4 i = false)

/-- At a later point the output's staging buffer holds what the body left at the point before: it is written
    back only after the last point. -/
theorem before_out_later (c : Dev nD) (t : Fin cfg0.N) (h0 : ¬t.val % 32 = 0) (d) :
    (dats m 0 c).before 4 t d = (outsAt m c (t.val - 1) (Nat.lt_of_le_of_lt (Nat.sub_le _ _) t.isLt)) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    idle_out (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_x t) fullShare ((dats m 0 c).before 0 t d))
    ∗ (∃ d, owns (c : Thread nD τ) (ms_adjL t) fullShare ((dats m 0 c).before 1 t d))
    ∗ (∃ d, owns (c : Thread nD τ) (ms_adjR t) fullShare ((dats m 0 c).before 2 t d))
    ∗ (∃ d, owns (c : Thread nD τ) (ms_w t) fullShare ((dats m 0 c).before 3 t d))
    ∗ (∃ d, owns (c : Thread nD τ) (ms_out t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms_x t) fullShare ((dats m 0 c).after 0 t)
    ∗ owns (c : Thread nD τ) (ms_adjL t) fullShare ((dats m 0 c).after 1 t)
    ∗ owns (c : Thread nD τ) (ms_adjR t) fullShare ((dats m 0 c).after 2 t)
    ∗ owns (c : Thread nD τ) (ms_w t) fullShare ((dats m 0 c).after 3 t)
    ∗ owns (c : Thread nD τ) (ms_out t) fullShare ((dats m 0 c).after 4 t))

set_option maxHeartbeats 800000 in
/-- The body at any point: the inputs' buffers hold their blocks; at point 0 the first case's run applies, at a
    later point the later case's over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_adjL, before_adjR, before_w]
  rw [show (dats m 0 c).Φ t.succ = (dats m 0 c).Φ t.castSucc from rfl,
    show (dats m 0 c).owesAt () t.succ = (dats m 0 c).owesAt () t.castSucc from rfl,
    after_x, after_adjL, after_adjR, after_w, after_out]
  have hN : t.val < 32 := lt_of_lt_of_eq t.isLt (show cfg0.N = 32 from N_0)
  by_cases h0 : t.val % 32 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((hfirst t).mpr h0) (fun h => (hlater t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _ _)
  · rw [outsAt_later m c t h0]
    simp only [before_out_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((hfirst t).mp h)) ((hlater t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [idle_out (cfg0.grid.coords t)]
  exact sound_body m c t

end Cert.Kernel.Gcn

end
-- ==== Proof.BitsLaunch.lean ====
/-
  The kernel's launch and frame. The kernel is handed `adj` through two windows (the left and right
  column halves of a row block), so the four distinct buffers behind the five windows' arrays are dealt to the
  windows with `adj`'s full share cut into its two halves, one per window; every other array goes whole to its one
  window. The kernel names no semaphore and no scratch of its own, so the region's invariant is just the core's
  scoped buffers that are no staging buffer, and no unscoped buffer bypasses the region. The run ends with every
  window's array at what the write-backs leave: an input's as it was, which is the frame.
-/
import proofs.«143368_g88596585382700_cont_9to1c4b_817_7_alg».proof.Proof.BitsFrame

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays: the three arguments and the result. -/
theorem arr_image : Finset.univ.image (Pipeline.arrRef spec0) = [main_arg0, main_arg1, main_arg2, main_v0].toFinset := by decide

/-- The buffer behind a window's array, whole, at the share the proof data hold that window's array at, is the
    window's array at entry. -/
theorem arr_at (c : Dev nD) (w : Fin cfg0.W) (q : PosShare TreeShare) (hq : (dats m 0 c).share w = q) :
    ((((c : Thread nD τ).loc (Pipeline.arrRef spec0 w)) ↦{q} V m c (Pipeline.arrRef spec0 w)) : sProp 𝕄)
      ⊢ ((cfg0.win w).arr.view.loc (c : Thread nD τ) ↦[(cfg0.win w).arr.view.set]{(dats m 0 c).share w} (dats m 0 c).arrAt w 0) := by
  rw [hq, (arr_whole0 w).set_eq_univ]
  exact .rfl

/-- The four buffers, one by one. -/
theorem arrBufs_eq (c : Dev nD) :
    (Pipeline.arrBufs (Ix := Unit) (Name := ℕ) (U := UR sig nD τ) (Lvl := ℕ) spec0 c (V m c) : sProp 𝕄)
      = iprop(((((c : Thread nD τ).loc main_arg0) ↦{fullShare} V m c main_arg0) : sProp 𝕄)
          ∗ (((c : Thread nD τ).loc main_arg1) ↦{fullShare} V m c main_arg1)
          ∗ (((c : Thread nD τ).loc main_arg2) ↦{fullShare} V m c main_arg2)
          ∗ (((c : Thread nD τ).loc main_v0) ↦{fullShare} V m c main_v0)) :=
  bigSep_eq_bigSepL_of_eq [main_arg0, main_arg1, main_arg2, main_v0] arr_image (by decide) _

/-- The region's invariant, at every point: the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

/-- The arrays at entry from the buffers behind them: `adj`'s buffer split between its two windows. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  unfold Dat.arrays
  rw [bigSep_W0]
  have hhalf : ((((c : Thread nD τ).loc main_arg1) ↦{fullShare} V m c main_arg1) : sProp 𝕄)
      ⊢ iprop(((((c : Thread nD τ).loc main_arg1) ↦{fullShare.left} V m c main_arg1) : sProp 𝕄)
          ∗ (((c : Thread nD τ).loc main_arg1) ↦{fullShare.right} V m c main_arg1)) :=
    (pointsTo_share (PosShare.mem_left_op_right fullShare)).1
  iintro ⟨H0, H1, H2, H3⟩
  ihave H1' := hhalf $$ H1
  icases H1' with ⟨H1a, H1b⟩
  isplitl [H0]; · iapply (arr_at m c 0 fullShare rfl); iexact H0
  isplitl [H1a]; · iapply (arr_at m c 1 fullShare.left rfl); iexact H1a
  isplitl [H1b]; · iapply (arr_at m c 2 fullShare.right rfl); iexact H1b
  isplitl [H2]; · iapply (arr_at m c 3 fullShare rfl); iexact H2
  iapply (arr_at m c 4 fullShare rfl); iexact H3

set_option backward.isDefEq.respectTransparency.types false in
set_option maxHeartbeats 1000000 in
/-- Every weakly fair execution of @main terminates, and in every final state each window's array holds what the
    write-backs leave of it. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Phi_eq]; iintro ⟨-, H⟩; iexact H)
    (hout := fun c => by rw [Phi_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The frame: the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

end Cert.Kernel.Gcn

end
-- ==== Proof.IdealSetup.lean ====
/-
  The idealized kernel's pipeline, before its body is run: what the TensorCore's arrays hold when the one
  region is entered (the launch contents: @main is the region alone), each window's block of its array at a
  grid point, that an input window's staging buffer holds exactly that block whenever the body runs (the
  feature matrix `x` is fetched once and stays; the two column halves of `adj`'s row block and the row block
  of `weight` are fetched at every point), and the two branch conditions of the body decided over the 32 grid
  points: the first branch (store the partial product) is taken at point 0 only, the second (add it to what
  the output block holds) at every later point.
-/
import proofs.«143368_g88596585382700_cont_9to1c4b_817_7_alg».proof.Proof.Gen.KernelIdeal.Launch
import proofs.«143368_g88596585382700_cont_9to1c4b_817_7_alg».proof.Proof.Gen.KernelIdeal.Skeleton
import proofs.«143368_g88596585382700_cont_9to1c4b_817_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched. -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data
    whose array is the region-entry one and whose body leaves the block in place: where the pipeline does not
    fetch, the block index has not moved. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_adjL_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_adjR_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_w_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, over the grid -/

/-- The store of the partial product happens at the first point only. -/
theorem hfirst : ∀ t : Fin cfg0.N, k0_cond1 (grid0.coords t) = 1#1 ↔ t.val % 32 = 0 :=
  (by decide +kernel : ∀ t : Fin grid0.N, k0_cond1 (grid0.coords t) = 1#1 ↔ t.val % 32 = 0)

/-- The accumulation happens at every other point. -/
theorem hlater : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)

/-! ## The staging memrefs the body is called with -/

/-- A staging buffer of the output window, through which its contents are stated. -/
abbrev VOut : View sig .tc .vmem S128x256 .f32 := (Memref.whole cc0_stg4_0 : Memref sig .tc .vmem S128x256 .f32).view

abbrev ms_x (t : Fin cfg0.N) : Memref sig .tc .vmem S128x8192 .f32 := win0_0.stage (cfg0.slots t 0)
abbrev hs_x (t : Fin cfg0.N) : (ms_x t).IsWhole := hstage0_0 ((cfg0.slots t 0).cast nbuf0_0)
abbrev ms_adjL (t : Fin cfg0.N) : Memref sig .tc .vmem S256x4096 .f32 := win0_1.stage (cfg0.slots t 1)
abbrev hs_adjL (t : Fin cfg0.N) : (ms_adjL t).IsWhole := hstage0_1 ((cfg0.slots t 1).cast nbuf0_1)
abbrev ms_adjR (t : Fin cfg0.N) : Memref sig .tc .vmem S256x4096 .f32 := win0_2.stage (cfg0.slots t 2)
abbrev hs_adjR (t : Fin cfg0.N) : (ms_adjR t).IsWhole := hstage0_2 ((cfg0.slots t 2).cast nbuf0_2)
abbrev ms_w (t : Fin cfg0.N) : Memref sig .tc .vmem S256x256 .f32 := win0_3.stage (cfg0.slots t 3)
abbrev hs_w (t : Fin cfg0.N) : (ms_w t).IsWhole := hstage0_3 ((cfg0.slots t 3).cast nbuf0_3)
abbrev ms_out (t : Fin cfg0.N) : Memref sig .tc .vmem S128x256 .f32 := win0_4.stage (cfg0.slots t 4)
abbrev hs_out (t : Fin cfg0.N) : (ms_out t).IsWhole := hstage0_4 ((cfg0.slots t 4).cast nbuf0_4)

end Cert.KernelIdeal.Gcn

end
-- ==== Proof.IdealRunFirst.lean ====
/-
  The kernel body run whole at the first grid point, on any whole staging memrefs: the four input buffers at
  their contents, the output buffer at anything. The body loads the two halves of `x` and of `adj`'s row block
  and the `weight` block, and the one store it makes (the branch of point 0) writes the partial product over the
  whole output block; the inputs are handed back as they were. The pieces the store leaves are found by the run.
-/
import proofs.«143368_g88596585382700_cont_9to1c4b_817_7_alg».proof.Proof.IdealSetup

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref at the first point, as pieces, with the proof that
    the body runs to the continuation holding the inputs as they were and the output with those pieces written. -/
noncomputable def runFirst (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) :
    { L : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0__gcn_block i arg1 harg1 arg2 harg2 arg3 harg3 arg4 harg4 arg5 harg5) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Gcn

end
-- ==== Proof.IdealRunLater.lean ====
/-
  The kernel body run whole at a later grid point (any point but the first), on any whole staging memrefs: the
  four input buffers at their contents, the output buffer at its running contents `acc`. The body loads the
  output block, adds the partial product to it and stores the sum over the whole block (the branch of the later
  points); the inputs are handed back as they were. The pieces the store leaves are found by the run.
-/
import proofs.«143368_g88596585382700_cont_9to1c4b_817_7_alg».proof.Proof.IdealSetup

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's store leaves in the output's staging memref at a later point, as pieces, with the proof that
    the body runs to the continuation holding the inputs as they were and the output with those pieces written. -/
noncomputable def runLater (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) :
    { L : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare acc
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L)) -∗ K ⟨⟩))
          ⊢ wp frame (wpE (defs₀ (F := F)) Variants.none c none) E (cc0__gcn_block i arg1 harg1 arg2 harg2 arg3 harg3 arg4 harg4 arg5 harg5) K } := by
  refine ⟨?_, fun E K => ?run⟩
  case run =>
    simp only [cc0__gcn_block_eq_skeleton]; unfold cc0__gcn_block_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Gcn

end
-- ==== Proof.IdealFrame.lean ====
/-
  The idealized kernel's pipeline data and body obligation. At the first grid point the body stores the partial
  product over the whole output block; at each later point it stores the block's running contents plus that
  point's partial product. So what the output's staging buffer holds after point n is defined by recursion on n
  (`outsAt`): the first case at n = 0, the later case over `outsAt (n - 1)` otherwise — the buffer is written
  back to HBM only after the last point, so between points it keeps what the body left. The input windows'
  buffers hold their blocks throughout. `adj` is handed to the kernel twice (its left and right column halves
  are two windows on one array), so the proof data hold that array at half the full share for each of the two.
-/
import proofs.«143368_g88596585382700_cont_9to1c4b_817_7_alg».proof.Proof.IdealRunFirst
import proofs.«143368_g88596585382700_cont_9to1c4b_817_7_alg».proof.Proof.IdealRunLater

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's staging buffer -/

/-- The first point's one store covers the output block. -/
theorem cover_first (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) (y : S128x256.Idx) :
    ∃ pc ∈ (runFirst c i arg1 harg1 arg2 harg2 arg3 harg3 arg4 harg4 arg5 harg5 hc1 hc2 x0 x1 x2 x3).1, y ∈ pc.1.set :=
  View.cover_of_tiledL (runFirst c i arg1 harg1 arg2 harg2 arg3 harg3 arg4 harg4 arg5 harg5 hc1 hc2 x0 x1 x2 x3).1 S128x256.size (by sl_kernel_rfl) y

/-- What the first point leaves in the output's staging buffer. -/
def outFirst (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) : Vec F S128x256 .f32 :=
  VOut.read (Elt F) (VOut.writes (Elt F) VOut.junk (runFirst c i arg1 harg1 arg2 harg2 arg3 harg3 arg4 harg4 arg5 harg5 hc1 hc2 x0 x1 x2 x3).1)

/-- A later point's one store covers the output block. -/
theorem cover_later (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) (y : S128x256.Idx) :
    ∃ pc ∈ (runLater c i arg1 harg1 arg2 harg2 arg3 harg3 arg4 harg4 arg5 harg5 hc1 hc2 x0 x1 x2 x3 acc).1, y ∈ pc.1.set :=
  View.cover_of_tiledL (runLater c i arg1 harg1 arg2 harg2 arg3 harg3 arg4 harg4 arg5 harg5 hc1 hc2 x0 x1 x2 x3 acc).1 S128x256.size (by sl_kernel_rfl) y

/-- What a later point leaves in the output's staging buffer, over the running contents `acc`. -/
def outLater (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) : Vec F S128x256 .f32 :=
  VOut.read (Elt F) (VOut.writes (Elt F) VOut.junk (runLater c i arg1 harg1 arg2 harg2 arg3 harg3 arg4 harg4 arg5 harg5 hc1 hc2 x0 x1 x2 x3 acc).1)

/-! ## What the output's staging buffer holds after each point -/

/-- The accumulation: after point 0 the first case's contents, after point n + 1 the later case's over what
    point n left. -/
def outsAt (c : Dev nD) : (n : ℕ) → n < cfg0.N → Vec F S128x256 .f32
  | 0, hn => outFirst c (grid0.coords ⟨0, hn⟩) (ms_x ⟨0, hn⟩) (hs_x ⟨0, hn⟩) (ms_adjL ⟨0, hn⟩) (hs_adjL ⟨0, hn⟩) (ms_adjR ⟨0, hn⟩) (hs_adjR ⟨0, hn⟩) (ms_w ⟨0, hn⟩) (hs_w ⟨0, hn⟩) (ms_out ⟨0, hn⟩) (hs_out ⟨0, hn⟩) ((hfirst ⟨0, hn⟩).mpr (Nat.zero_mod _)) (fun h => (hlater ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 32 = 0 then
      outFirst c (grid0.coords ⟨n + 1, hn⟩) (ms_x ⟨n + 1, hn⟩) (hs_x ⟨n + 1, hn⟩) (ms_adjL ⟨n + 1, hn⟩) (hs_adjL ⟨n + 1, hn⟩) (ms_adjR ⟨n + 1, hn⟩) (hs_adjR ⟨n + 1, hn⟩) (ms_w ⟨n + 1, hn⟩) (hs_w ⟨n + 1, hn⟩) (ms_out ⟨n + 1, hn⟩) (hs_out ⟨n + 1, hn⟩) ((hfirst ⟨n + 1, hn⟩).mpr h0) (fun h => (hlater ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms_x ⟨n + 1, hn⟩) (hs_x ⟨n + 1, hn⟩) (ms_adjL ⟨n + 1, hn⟩) (hs_adjL ⟨n + 1, hn⟩) (ms_adjR ⟨n + 1, hn⟩) (hs_adjR ⟨n + 1, hn⟩) (ms_w ⟨n + 1, hn⟩) (hs_w ⟨n + 1, hn⟩) (ms_out ⟨n + 1, hn⟩) (hs_out ⟨n + 1, hn⟩) (fun h => h0 ((hfirst ⟨n + 1, hn⟩).mp h)) ((hlater ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn))

theorem outsAt_first (c : Dev nD) (t : Fin cfg0.N) (h0 : t.val % 32 = 0) :
    outsAt m c t.val t.isLt = outFirst c (grid0.coords t) (ms_x t) (hs_x t) (ms_adjL t) (hs_adjL t) (ms_adjR t) (hs_adjR t) (ms_w t) (hs_w t) (ms_out t) (hs_out t) ((hfirst t).mpr h0) (fun h => (hlater t).mp h h0) (iblk m c 0 t) (iblk m c 1 t) (iblk m c 2 t) (iblk m c 3 t) := by
  obtain ⟨n, hn⟩ := t
  cases n with
  | zero => exact rfl
  | succ n => exact (dif_pos h0).trans rfl

theorem outsAt_later (c : Dev nD) (t : Fin cfg0.N) (h0 : ¬t.val % 32 = 0) :
    outsAt m c t.val t.isLt = outLater c (grid0.coords t) (ms_x t) (hs_x t) (ms_adjL t) (hs_adjL t) (ms_adjR t) (hs_adjR t) (ms_w t) (hs_w t) (ms_out t) (hs_out t) (fun h => h0 ((hfirst t).mp h)) ((hlater t).mpr h0) (iblk m c 0 t) (iblk m c 1 t) (iblk m c 2 t) (iblk m c 3 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    buffer at its block and the output's at `outsAt`; the invariant the core's scoped buffers that are no staging
    buffer; nothing owed; `x` and `weight` at the full share, `adj` at one half for each of its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_adjL (c : Dev nD) (t : Fin cfg0.N) : (dats m 0 c).after 1 t = iblk m c 1 t := by dsimp only [dats]
theorem after_adjR (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_out (c : Dev nD) (t : Fin cfg0.N) : (dats m 0 c).after 4 t = (outsAt m c t.val t.isLt) := by dsimp only [dats]

theorem before_x (c : Dev nD) (t : Fin cfg0.N) (d) : (dats m 0 c).before 0 t d = iblk m c 0 t :=
  before_x_of m (dats m 0 c) (A_eq m c 0) (after_x m c) t d
theorem before_adjL (c : Dev nD) (t : Fin cfg0.N) (d) : (dats m 0 c).before 1 t d = iblk m c 1 t :=
  before_adjL_of m (dats m 0 c) (A_eq m c 1) (after_adjL m c) t d
theorem before_adjR (c : Dev nD) (t : Fin cfg0.N) (d) : (dats m 0 c).before 2 t d = iblk m c 2 t :=
  before_adjR_of m (dats m 0 c) (A_eq m c 2) (after_adjR m c) t d
theorem before_w (c : Dev nD) (t : Fin cfg0.N) (d) : (dats m 0 c).before 3 t d = iblk m c 3 t :=
  before_w_of m (dats m 0 c) (A_eq m c 3) (after_w m c) t d

/-- The output window is live at every grid point: one of the body's two branches stores into it. -/
theorem idle_out : ∀ i : grid0.Coords, cfg0.idle 4 i = false :=
  (by decide +kernel : ∀ i : grid0.Coords, idle0 4 i = false)

/-- At a later point the output's staging buffer holds what the body left at the point before: it is written
    back only after the last point. -/
theorem before_out_later (c : Dev nD) (t : Fin cfg0.N) (h0 : ¬t.val % 32 = 0) (d) :
    (dats m 0 c).before 4 t d = (outsAt m c (t.val - 1) (Nat.lt_of_le_of_lt (Nat.sub_le _ _) t.isLt)) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    idle_out (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_x t) fullShare ((dats m 0 c).before 0 t d))
    ∗ (∃ d, owns (c : Thread nD τ) (ms_adjL t) fullShare ((dats m 0 c).before 1 t d))
    ∗ (∃ d, owns (c : Thread nD τ) (ms_adjR t) fullShare ((dats m 0 c).before 2 t d))
    ∗ (∃ d, owns (c : Thread nD τ) (ms_w t) fullShare ((dats m 0 c).before 3 t d))
    ∗ (∃ d, owns (c : Thread nD τ) (ms_out t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms_x t) fullShare ((dats m 0 c).after 0 t)
    ∗ owns (c : Thread nD τ) (ms_adjL t) fullShare ((dats m 0 c).after 1 t)
    ∗ owns (c : Thread nD τ) (ms_adjR t) fullShare ((dats m 0 c).after 2 t)
    ∗ owns (c : Thread nD τ) (ms_w t) fullShare ((dats m 0 c).after 3 t)
    ∗ owns (c : Thread nD τ) (ms_out t) fullShare ((dats m 0 c).after 4 t))

set_option maxHeartbeats 800000 in
/-- The body at any point: the inputs' buffers hold their blocks; at point 0 the first case's run applies, at a
    later point the later case's over what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_adjL, before_adjR, before_w]
  rw [show (dats m 0 c).Φ t.succ = (dats m 0 c).Φ t.castSucc from rfl,
    show (dats m 0 c).owesAt () t.succ = (dats m 0 c).owesAt () t.castSucc from rfl,
    after_x, after_adjL, after_adjR, after_w, after_out]
  have hN : t.val < 32 := lt_of_lt_of_eq t.isLt (show cfg0.N = 32 from N_0)
  by_cases h0 : t.val % 32 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((hfirst t).mpr h0) (fun h => (hlater t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _ _)
  · rw [outsAt_later m c t h0]
    simp only [before_out_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((hfirst t).mp h)) ((hlater t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [idle_out (cfg0.grid.coords t)]
  exact sound_body m c t

end Cert.KernelIdeal.Gcn

end
-- ==== Proof.IdealLaunch.lean ====
/-
  The idealized kernel's launch and frame. The kernel is handed `adj` through two windows (the left and right
  column halves of a row block), so the four distinct buffers behind the five windows' arrays are dealt to the
  windows with `adj`'s full share cut into its two halves, one per window; every other array goes whole to its one
  window. The kernel names no semaphore and no scratch of its own, so the region's invariant is just the core's
  scoped buffers that are no staging buffer, and no unscoped buffer bypasses the region. The run ends with every
  window's array at what the write-backs leave: an input's as it was, which is the frame.
-/
import proofs.«143368_g88596585382700_cont_9to1c4b_817_7_alg».proof.Proof.IdealFrame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays: the three arguments and the result. -/
theorem arr_image : Finset.univ.image (Pipeline.arrRef spec0) = [main_arg0, main_arg1, main_arg2, main_v0].toFinset := by decide

/-- The buffer behind a window's array, whole, at the share the proof data hold that window's array at, is the
    window's array at entry. -/
theorem arr_at (c : Dev nD) (w : Fin cfg0.W) (q : PosShare TreeShare) (hq : (dats m 0 c).share w = q) :
    ((((c : Thread nD τ).loc (Pipeline.arrRef spec0 w)) ↦{q} V m c (Pipeline.arrRef spec0 w)) : sProp 𝕄)
      ⊢ ((cfg0.win w).arr.view.loc (c : Thread nD τ) ↦[(cfg0.win w).arr.view.set]{(dats m 0 c).share w} (dats m 0 c).arrAt w 0) := by
  rw [hq, (arr_whole0 w).set_eq_univ]
  exact .rfl

/-- The four buffers, one by one. -/
theorem arrBufs_eq (c : Dev nD) :
    (Pipeline.arrBufs (Ix := Unit) (Name := ℕ) (U := UR sig nD τ) (Lvl := ℕ) spec0 c (V m c) : sProp 𝕄)
      = iprop(((((c : Thread nD τ).loc main_arg0) ↦{fullShare} V m c main_arg0) : sProp 𝕄)
          ∗ (((c : Thread nD τ).loc main_arg1) ↦{fullShare} V m c main_arg1)
          ∗ (((c : Thread nD τ).loc main_arg2) ↦{fullShare} V m c main_arg2)
          ∗ (((c : Thread nD τ).loc main_v0) ↦{fullShare} V m c main_v0)) :=
  bigSep_eq_bigSepL_of_eq [main_arg0, main_arg1, main_arg2, main_v0] arr_image (by decide) _

/-- The region's invariant, at every point: the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) spec0 c := rfl

/-- The arrays at entry from the buffers behind them: `adj`'s buffer split between its two windows. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrBufs_eq]
  unfold Dat.arrays
  rw [bigSep_W0]
  have hhalf : ((((c : Thread nD τ).loc main_arg1) ↦{fullShare} V m c main_arg1) : sProp 𝕄)
      ⊢ iprop(((((c : Thread nD τ).loc main_arg1) ↦{fullShare.left} V m c main_arg1) : sProp 𝕄)
          ∗ (((c : Thread nD τ).loc main_arg1) ↦{fullShare.right} V m c main_arg1)) :=
    (pointsTo_share (PosShare.mem_left_op_right fullShare)).1
  iintro ⟨H0, H1, H2, H3⟩
  ihave H1' := hhalf $$ H1
  icases H1' with ⟨H1a, H1b⟩
  isplitl [H0]; · iapply (arr_at m c 0 fullShare rfl); iexact H0
  isplitl [H1a]; · iapply (arr_at m c 1 fullShare.left rfl); iexact H1a
  isplitl [H1b]; · iapply (arr_at m c 2 fullShare.right rfl); iexact H1b
  isplitl [H2]; · iapply (arr_at m c 3 fullShare rfl); iexact H2
  iapply (arr_at m c 4 fullShare rfl); iexact H3

set_option backward.isDefEq.respectTransparency.types false in
set_option maxHeartbeats 1000000 in
/-- Every weakly fair execution of @main terminates, and in every final state each window's array holds what the
    write-backs leave of it. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by rw [Phi_eq]; iintro ⟨-, H⟩; iexact H)
    (hout := fun c => by rw [Phi_eq]; iintro H; isplitr; · iempintro
                         iexact H)
    (QY := fun _ _ => True)
    (hY := fun c s' => by iintro ⟨-, -, HSI⟩; imodintro; isplitr; · ipureintro; trivial
                          iexact HSI)
    (hQ := fun s h c w => (h c).1 w)

/-- The frame: the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

end Cert.KernelIdeal.Gcn

end
-- ==== Proof.Spec.lean ====
/-
  The graph convolution as one function of the three argument arrays, over the extended reals:

      out[b, o] = Σ_n (Σ_k adj[n, k] · x[b, k]) · w[n, o]        (n, k < 8192; b < 128; o < 256)

  and the same number as the kernel accumulates it: the rows n of `adj` and `w` taken 256 at a time (32 blocks,
  in order), the inner sum over k split at 4096 into the left and right column halves of `adj`'s row block.
  Only the commutative-monoid laws of + are used to join the two (a finite sum may be cut into consecutive
  pieces and summed piece by piece), so nothing here asks the entries to be finite.
-/
import Idealize.ShloMosaic.PureOps.Ideal
import Idealize.ShloMosaic.Lib.ValueIdx

noncomputable section

namespace Cert.GcnSpec

open Idealize.ShloMosaic Idealize.ShloMosaic.ValueIdx

abbrev SX : Shape := ⟨2, ![128, 8192]⟩
abbrev SAdj : Shape := ⟨2, ![8192, 8192]⟩
abbrev SW : Shape := ⟨2, ![8192, 256]⟩
abbrev SOut : Shape := ⟨2, ![128, 256]⟩

/-- Entry (b, o) of the convolution: the aggregate Σ_k adj[n, k] · x[b, k] of row n, weighted by w[n, o], summed
    over all 8192 rows. -/
def conv (x : SX.Idx → EReal) (adj : SAdj.Idx → EReal) (w : SW.Idx → EReal) (b : Fin 128) (o : Fin 256) : EReal :=
  ∑ n : Fin 8192, (∑ k : Fin 8192, adj (ix2 n k) * x (ix2 b k)) * w (ix2 n o)

/-- The convolution as an array of shape [128, 256]. -/
def G (x : SX.Idx → EReal) (adj : SAdj.Idx → EReal) (w : SW.Idx → EReal) : SOut.Idx → EReal :=
  fun i => conv x adj w ⟨(i 0).val, (i 0).isLt⟩ ⟨(i 1).val, (i 1).isLt⟩

/-- Row jj of row block j. -/
abbrev row (j : Fin 32) (jj : Fin 256) : Fin 8192 := ⟨256 * j.val + jj.val, by omega⟩
/-- Column k of the left half, -/
abbrev colL (k : Fin 4096) : Fin 8192 := ⟨k.val, by omega⟩
/-- and of the right half. -/
abbrev colR (k : Fin 4096) : Fin 8192 := ⟨4096 + k.val, by omega⟩

/-- What the kernel body computes from its four loaded blocks, entry (b, o): `xb` the whole feature matrix, `aL` and
    `aR` the left and right column halves of a 256-row block of `adj`, `wb` the matching 256 rows of `w`. -/
def blockPart (xb : SX.Idx → EReal) (aL aR : (⟨2, ![256, 4096]⟩ : Shape).Idx → EReal) (wb : (⟨2, ![256, 256]⟩ : Shape).Idx → EReal)
    (b : Fin 128) (o : Fin 256) : EReal :=
  ∑ jj : Fin 256, ((∑ k : Fin 4096, aL (ix2 jj k) * xb (ix2 b (colL k)))
      + ∑ k : Fin 4096, aR (ix2 jj k) * xb (ix2 b (colR k))) * wb (ix2 jj o)

/-- Row block j's contribution to entry (b, o): its 256 rows' aggregates, each the sum of its left-half and its
    right-half part, weighted and summed. -/
def part (x : SX.Idx → EReal) (adj : SAdj.Idx → EReal) (w : SW.Idx → EReal) (j : Fin 32) (b : Fin 128) (o : Fin 256) : EReal :=
  ∑ jj : Fin 256, ((∑ k : Fin 4096, adj (ix2 (row j jj) (colL k)) * x (ix2 b (colL k)))
      + ∑ k : Fin 4096, adj (ix2 (row j jj) (colR k)) * x (ix2 b (colR k))) * w (ix2 (row j jj) o)

/-- The running sum in the kernel's order: block 0's contribution, then each later block's added on the right. -/
def run (x : SX.Idx → EReal) (adj : SAdj.Idx → EReal) (w : SW.Idx → EReal) : (n : ℕ) → n < 32 → Fin 128 → Fin 256 → EReal
  | 0, h => part x adj w ⟨0, h⟩
  | n + 1, h => fun b o => run x adj w n (Nat.lt_of_succ_lt h) b o + part x adj w ⟨n + 1, h⟩ b o

end Cert.GcnSpec

end
-- ==== Proof.IdealBodyValue.lean ====
/-
  What the kernel body leaves in the output block, read one entry at a time over the extended reals. At the first
  grid point entry (b, o) is the partial product of the four loaded blocks: the two matrix products over the left
  and right column halves, added, then contracted with the weight block over the 256 rows. At a later point it is
  the block's running entry plus that partial product.
-/
import proofs.«143368_g88596585382700_cont_9to1c4b_817_7_alg».proof.Proof.IdealFrame
import proofs.«143368_g88596585382700_cont_9to1c4b_817_7_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.GcnValue

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.Gcn

/-! ## What each case's one store leaves, as the payload over the loaded blocks (any number system) -/

section Pieces
variable {F : FTy → Type} [FloatOps F]

theorem hz : (![0, 0] : Fin 2 → Nat) = fun _ => 0 := funext fun a => by fin_cases a <;> rfl

/-- The left half of the feature block: its first 4096 columns. -/
abbrev xL (x0 : Vec F S128x8192 .f32) : Vec F S128x4096 .f32 :=
  View.ld x0 (Rect.unit (s := S128x8192) ![0, 0] S128x4096.size inb_S128x8192_S128x4096_0_0)
/-- The right half of the feature block: its last 4096 columns. -/
abbrev xR (x0 : Vec F S128x8192 .f32) : Vec F S128x4096 .f32 :=
  View.ld x0 (Rect.unit (s := S128x8192) ![0, 4096] S128x4096.size inb_S128x8192_S128x4096_0_4096)

/-- The first point's store covers the block, so the block holds the store's payload. -/
theorem outFirst_eq (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec F S128x8192 .f32) (x1 : Vec F S256x4096 .f32) (x2 : Vec F S256x4096 .f32) (x3 : Vec F S256x256 .f32) :
    outFirst (F := F) c i arg1 harg1 arg2 harg2 arg3 harg3 arg4 harg4 arg5 harg5 hc1 hc2 x0 x1 x2 x3 = k0_pay1 x1 (xL x0) x2 (xR x0) x3 := by
  unfold outFirst
  rw [View.read_writes_eq_canon _ _ _ (cover_first c i arg1 harg1 arg2 harg2 arg3 harg3 arg4 harg4 arg5 harg5 hc1 hc2 x0 x1 x2 x3)]
  unfold runFirst
  dsimp only
  sl_unfold_words
  rw [View.canon_unit_zero hz]
  simp only [View.readAt_eq_ld, harg1.read_unread, harg2.read_unread, harg3.read_unread, harg4.read_unread, View.ld_unit_zero (S := S256x4096) hz, View.ld_unit_zero (S := S256x256) hz]

/-- A later point's store covers the block, so the block holds the store's payload over the running contents. -/
theorem outLater_eq (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec F S128x8192 .f32) (x1 : Vec F S256x4096 .f32) (x2 : Vec F S256x4096 .f32) (x3 : Vec F S256x256 .f32) (acc : Vec F S128x256 .f32) :
    outLater (F := F) c i arg1 harg1 arg2 harg2 arg3 harg3 arg4 harg4 arg5 harg5 hc1 hc2 x0 x1 x2 x3 acc = k0_pay2 x1 (xL x0) x2 (xR x0) x3 acc := by
  unfold outLater
  rw [View.read_writes_eq_canon _ _ _ (cover_later c i arg1 harg1 arg2 harg2 arg3 harg3 arg4 harg4 arg5 harg5 hc1 hc2 x0 x1 x2 x3 acc)]
  unfold runLater
  dsimp only
  sl_unfold_words
  rw [View.canon_unit_zero hz]
  simp only [View.readAt_eq_ld, harg1.read_unread, harg2.read_unread, harg3.read_unread, harg4.read_unread, harg5.read_unread, View.ld_unit_zero (S := S256x4096) hz, View.ld_unit_zero (S := S256x256) hz, View.ld_unit_zero (S := S128x256) hz]

end Pieces
/-! ## The two contractions' operand indices, coordinate by coordinate -/

theorem lhs_mmA_0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl
theorem lhs_mmA_1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
theorem rhs_mmA_0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl
theorem rhs_mmA_1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

theorem lhs_mmB_0 (i : S128x256.Idx) (q : dot_S256x128_S256x256_S128x256_0_0_1_1_n_n.contr.Idx) :
    (dot_S256x128_S256x256_S128x256_0_0_1_1_n_n.lhsIdx i q 0).val = (q ⟨0, by decide⟩).val :=
  dot_S256x128_S256x256_S128x256_0_0_1_1_n_n.lhsIdx_val_of_single rfl i q
theorem lhs_mmB_1 (i : S128x256.Idx) (q : dot_S256x128_S256x256_S128x256_0_0_1_1_n_n.contr.Idx) :
    (dot_S256x128_S256x256_S128x256_0_0_1_1_n_n.lhsIdx i q 1).val = (i 0).val := by
  unfold DotDims.lhsIdx
  rw [dif_neg (show ¬(1 : Fin S256x128.rank) ∈ dot_S256x128_S256x256_S128x256_0_0_1_1_n_n.lhsBatch by decide), dif_pos (show (1 : Fin S256x128.rank) ∈ dot_S256x128_S256x256_S128x256_0_0_1_1_n_n.lhsNonContracting by decide)]
  rfl
theorem rhs_mmB_0 (i : S128x256.Idx) (q : dot_S256x128_S256x256_S128x256_0_0_1_1_n_n.contr.Idx) :
    (dot_S256x128_S256x256_S128x256_0_0_1_1_n_n.rhsIdx i q 0).val = (q ⟨0, by decide⟩).val :=
  dot_S256x128_S256x256_S128x256_0_0_1_1_n_n.rhsIdx_val_of_single rfl i q
theorem rhs_mmB_1 (i : S128x256.Idx) (q : dot_S256x128_S256x256_S128x256_0_0_1_1_n_n.contr.Idx) :
    (dot_S256x128_S256x256_S128x256_0_0_1_1_n_n.rhsIdx i q 1).val = (i 1).val := by
  unfold DotDims.rhsIdx
  rw [dif_neg (show ¬(1 : Fin S256x256.rank) ∈ dot_S256x128_S256x256_S128x256_0_0_1_1_n_n.rhsBatch by decide), dif_pos (show (1 : Fin S256x256.rank) ∈ dot_S256x128_S256x256_S128x256_0_0_1_1_n_n.rhsNonContracting by decide)]
  rfl

/-! ## Each contraction into a zero accumulator, read at an entry -/

/-- A [256,4096] block against a [128,4096] block, both contracted over their 4096 columns: entry (jj, b). -/
theorem mmA_apply (v : FVec Ideal S256x4096 .f32) (w : FVec Ideal S128x4096 .f32) (jj : Fin 256) (b : Fin 128) :
    matmul (F := Ideal) dot_S256x4096_S128x4096_S256x128_1_1_0_0_n_n none v w (constant (F := Ideal) S256x128 .f32 0x00000000#32) (ix2 jj b)
      = ∑ k : Fin 4096, v (ix2 jj k) * w (ix2 b k) := by
  refine (Ideal.matmul_constant_zero_apply dot_S256x4096_S128x4096_S256x128_1_1_0_0_n_n none v w (ix2 jj b)).trans ?_
  rw [← Equiv.sum_comp (ValueIdx.contrEquiv1 dot_S256x4096_S128x4096_S256x128_1_1_0_0_n_n 4096 rfl rfl).symm]
  refine Finset.sum_congr rfl fun k _ => ?_
  have hk := ValueIdx.contrEquiv1_symm_val dot_S256x4096_S128x4096_S256x128_1_1_0_0_n_n 4096 rfl rfl k
  have el : dot_S256x4096_S128x4096_S256x128_1_1_0_0_n_n.lhsIdx (ix2 jj b) ((ValueIdx.contrEquiv1 dot_S256x4096_S128x4096_S256x128_1_1_0_0_n_n 4096 rfl rfl).symm k) = ix2 jj k := funext fun a => Fin.ext (by
    match a with
    | ⟨0, _⟩ => exact lhs_mmA_0 _ _
    | ⟨1, _⟩ => exact (lhs_mmA_1 _ _).trans hk)
  have er : dot_S256x4096_S128x4096_S256x128_1_1_0_0_n_n.rhsIdx (ix2 jj b) ((ValueIdx.contrEquiv1 dot_S256x4096_S128x4096_S256x128_1_1_0_0_n_n 4096 rfl rfl).symm k) = ix2 b k := funext fun a => Fin.ext (by
    match a with
    | ⟨0, _⟩ => exact rhs_mmA_0 _ _
    | ⟨1, _⟩ => exact (rhs_mmA_1 _ _).trans hk)
  rw [el, er]

/-- A [256,128] block against a [256,256] block, both contracted over their 256 rows: entry (b, o). -/
theorem mmB_apply (v : FVec Ideal S256x128 .f32) (w : FVec Ideal S256x256 .f32) (b : Fin 128) (o : Fin 256) :
    matmul (F := Ideal) dot_S256x128_S256x256_S128x256_0_0_1_1_n_n none v w (constant (F := Ideal) S128x256 .f32 0x00000000#32) (ix2 b o)
      = ∑ jj : Fin 256, v (ix2 jj b) * w (ix2 jj o) := by
  refine (Ideal.matmul_constant_zero_apply dot_S256x128_S256x256_S128x256_0_0_1_1_n_n none v w (ix2 b o)).trans ?_
  rw [← Equiv.sum_comp (ValueIdx.contrEquiv1 dot_S256x128_S256x256_S128x256_0_0_1_1_n_n 256 rfl rfl).symm]
  refine Finset.sum_congr rfl fun k _ => ?_
  have hk := ValueIdx.contrEquiv1_symm_val dot_S256x128_S256x256_S128x256_0_0_1_1_n_n 256 rfl rfl k
  have el : dot_S256x128_S256x256_S128x256_0_0_1_1_n_n.lhsIdx (ix2 b o) ((ValueIdx.contrEquiv1 dot_S256x128_S256x256_S128x256_0_0_1_1_n_n 256 rfl rfl).symm k) = ix2 k b := funext fun a => Fin.ext (by
    match a with
    | ⟨0, _⟩ => exact (lhs_mmB_0 _ _).trans hk
    | ⟨1, _⟩ => exact lhs_mmB_1 _ _)
  have er : dot_S256x128_S256x256_S128x256_0_0_1_1_n_n.rhsIdx (ix2 b o) ((ValueIdx.contrEquiv1 dot_S256x128_S256x256_S128x256_0_0_1_1_n_n 256 rfl rfl).symm k) = ix2 k o := funext fun a => Fin.ext (by
    match a with
    | ⟨0, _⟩ => exact (rhs_mmB_0 _ _).trans hk
    | ⟨1, _⟩ => exact rhs_mmB_1 _ _)
  rw [el, er]

/-! ## The payloads read at an entry, over the extended reals -/

/-- The partial product at entry (b, o): the two products over the column halves, added, contracted with the
    weight block over the 256 rows. -/
theorem pay1_apply (v0 : FVec Ideal S256x4096 .f32) (v1 : FVec Ideal S128x4096 .f32) (v3 : FVec Ideal S256x4096 .f32) (v4 : FVec Ideal S128x4096 .f32) (v7 : FVec Ideal S256x256 .f32)
    (b : Fin 128) (o : Fin 256) :
    k0_pay1 (F := Ideal) v0 v1 v3 v4 v7 (ix2 b o)
      = ∑ jj : Fin 256, ((∑ k : Fin 4096, v0 (ix2 jj k) * v1 (ix2 b k)) + ∑ k : Fin 4096, v3 (ix2 jj k) * v4 (ix2 b k)) * v7 (ix2 jj o) := by
  unfold k0_pay1
  refine (mmB_apply _ v7 b o).trans ?_
  refine Finset.sum_congr rfl fun jj _ => ?_
  refine congrArg (· * v7 (ix2 jj o)) ?_
  refine (addf_apply _ _ (ix2 jj b)).trans ?_
  exact congrArg₂ (· + ·) (mmA_apply v0 v1 jj b) (mmA_apply v3 v4 jj b)

/-- The accumulating payload at entry (b, o): the running entry plus the partial product. -/
theorem pay2_apply (v0 : FVec Ideal S256x4096 .f32) (v1 : FVec Ideal S128x4096 .f32) (v3 : FVec Ideal S256x4096 .f32) (v4 : FVec Ideal S128x4096 .f32) (v7 : FVec Ideal S256x256 .f32)
    (v15 : FVec Ideal S128x256 .f32) (b : Fin 128) (o : Fin 256) :
    k0_pay2 (F := Ideal) v0 v1 v3 v4 v7 v15 (ix2 b o)
      = v15 (ix2 b o) + ∑ jj : Fin 256, ((∑ k : Fin 4096, v0 (ix2 jj k) * v1 (ix2 b k)) + ∑ k : Fin 4096, v3 (ix2 jj k) * v4 (ix2 b k)) * v7 (ix2 jj o) := by
  unfold k0_pay2
  refine (addf_apply _ _ (ix2 b o)).trans ?_
  exact congrArg₂ (· + ·) (congrFun (shapeCast_self v15 shapeCasts_S128x256_S128x256) (ix2 b o)) (pay1_apply v0 v1 v3 v4 v7 b o)

/-! ## The two half loads of the feature block, read at an entry -/

/-- The left half at (b, k) is the block at column k. -/
theorem xL_apply (x0 : Vec Ideal S128x8192 .f32) (b : Fin 128) (k : Fin 4096) :
    xL (F := Ideal) x0 (ix2 b k) = x0 (ix2 b (Cert.GcnSpec.colL k)) :=
  congrArg x0 (funext fun a => Fin.ext (by
    match a with
    | ⟨0, _⟩ => show 0 + 1 * b.val = b.val; omega
    | ⟨1, _⟩ => show 0 + 1 * k.val = k.val; omega))

/-- The right half at (b, k) is the block at column 4096 + k. -/
theorem xR_apply (x0 : Vec Ideal S128x8192 .f32) (b : Fin 128) (k : Fin 4096) :
    xR (F := Ideal) x0 (ix2 b k) = x0 (ix2 b (Cert.GcnSpec.colR k)) :=
  congrArg x0 (funext fun a => Fin.ext (by
    match a with
    | ⟨0, _⟩ => show 0 + 1 * b.val = b.val; omega
    | ⟨1, _⟩ => show 4096 + 1 * k.val = 4096 + k.val; omega))

/-- The partial product of the spec is the payload's sum over the two half loads. -/
theorem blockPart_eq (x0 : Vec Ideal S128x8192 .f32) (x1 : Vec Ideal S256x4096 .f32) (x2 : Vec Ideal S256x4096 .f32) (x3 : Vec Ideal S256x256 .f32) (b : Fin 128) (o : Fin 256) :
    (∑ jj : Fin 256, ((∑ k : Fin 4096, x1 (ix2 jj k) * xL (F := Ideal) x0 (ix2 b k)) + ∑ k : Fin 4096, x2 (ix2 jj k) * xR (F := Ideal) x0 (ix2 b k)) * x3 (ix2 jj o))
      = Cert.GcnSpec.blockPart x0 x1 x2 x3 b o := by
  unfold Cert.GcnSpec.blockPart
  refine Finset.sum_congr rfl fun jj _ => ?_
  refine congrArg (· * x3 (ix2 jj o)) ?_
  exact congrArg₂ (· + ·)
    (Finset.sum_congr rfl fun k _ => congrArg (x1 (ix2 jj k) * ·) (xL_apply x0 b k))
    (Finset.sum_congr rfl fun k _ => congrArg (x2 (ix2 jj k) * ·) (xR_apply x0 b k))

/-! ## The output block's contents at an entry -/

/-- The first point's contents of the output block at entry (b, o): the partial product of the loaded blocks. -/
theorem outFirst_apply (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : k0_cond1 i = 1#1) (hc2 : ¬ k0_cond2 i = 1#1)
    (x0 : Vec Ideal S128x8192 .f32) (x1 : Vec Ideal S256x4096 .f32) (x2 : Vec Ideal S256x4096 .f32) (x3 : Vec Ideal S256x256 .f32)
    (b : Fin 128) (o : Fin 256) :
    outFirst (F := Ideal) c i arg1 harg1 arg2 harg2 arg3 harg3 arg4 harg4 arg5 harg5 hc1 hc2 x0 x1 x2 x3 (ix2 b o) = Cert.GcnSpec.blockPart x0 x1 x2 x3 b o := by
  refine (congrFun (outFirst_eq (F := Ideal) c i arg1 harg1 arg2 harg2 arg3 harg3 arg4 harg4 arg5 harg5 hc1 hc2 x0 x1 x2 x3) (ix2 b o)).trans ?_
  refine (pay1_apply x1 (xL (F := Ideal) x0) x2 (xR (F := Ideal) x0) x3 b o).trans ?_
  exact blockPart_eq x0 x1 x2 x3 b o

/-- A later point's contents of the output block at entry (b, o): the running entry plus the partial product. -/
theorem outLater_apply (c : Dev nD) (i : grid0.Coords) (arg1 : Memref sig .tc .vmem S128x8192 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S128x256 .f32) (harg5 : arg5.IsWhole) (hc1 : ¬ k0_cond1 i = 1#1) (hc2 : k0_cond2 i = 1#1)
    (x0 : Vec Ideal S128x8192 .f32) (x1 : Vec Ideal S256x4096 .f32) (x2 : Vec Ideal S256x4096 .f32) (x3 : Vec Ideal S256x256 .f32)
    (acc : Vec Ideal S128x256 .f32) (b : Fin 128) (o : Fin 256) :
    outLater (F := Ideal) c i arg1 harg1 arg2 harg2 arg3 harg3 arg4 harg4 arg5 harg5 hc1 hc2 x0 x1 x2 x3 acc (ix2 b o) = acc (ix2 b o) + Cert.GcnSpec.blockPart x0 x1 x2 x3 b o := by
  refine (congrFun (outLater_eq (F := Ideal) c i arg1 harg1 arg2 harg2 arg3 harg3 arg4 harg4 arg5 harg5 hc1 hc2 x0 x1 x2 x3 acc) (ix2 b o)).trans ?_
  refine (pay2_apply x1 (xL (F := Ideal) x0) x2 (xR (F := Ideal) x0) x3 acc b o).trans ?_
  exact congrArg (acc (ix2 b o) + ·) (blockPart_eq x0 x1 x2 x3 b o)

end Cert.KernelIdeal.GcnValue

end
-- ==== Proof.ConvBlocks.lean ====
/-
  The convolution's sum over the 8192 rows, cut into 32 consecutive blocks of 256 rows and summed block by block
  from the first, with each row's inner sum over the 8192 columns cut at 4096, is the same extended real: a finite
  sum in a commutative monoid may be cut into consecutive pieces and the pieces summed in order.
-/
import proofs.«143368_g88596585382700_cont_9to1c4b_817_7_alg».proof.Proof.Spec
import Mathlib.Algebra.BigOperators.Fin
import Mathlib.Data.Fintype.BigOperators
import Mathlib.Logic.Equiv.Fin.Basic

noncomputable section

namespace Cert.GcnSpec

open Idealize.ShloMosaic Idealize.ShloMosaic.ValueIdx

/-- A sum over the 8192 columns is the sum over the left 4096 plus the sum over the right 4096: the index set
    Fin (4096 + 4096) is the disjoint union of the images of the two inclusions k ↦ k and k ↦ 4096 + k, which are
    the left-half and right-half column maps. Only commutativity and associativity of + are used. -/
theorem sum_cols {M : Type*} [AddCommMonoid M] (f : Fin 8192 → M) :
    ∑ k : Fin 8192, f k = (∑ k : Fin 4096, f (colL k)) + ∑ k : Fin 4096, f (colR k) :=
  Fin.sum_univ_add (a := 4096) (b := 4096) f

/-- A sum over the 8192 rows is the sum over the 32 blocks of the sums over each block's 256 rows: the map
    (j, jj) ↦ 256 · j + jj is a bijection from Fin 32 × Fin 256 onto Fin (32 · 256), so the sum may be reindexed along
    it, and a sum over a product of index sets is the iterated sum. -/
theorem sum_rows {M : Type*} [AddCommMonoid M] (f : Fin 8192 → M) :
    ∑ n : Fin 8192, f n = ∑ j : Fin 32, ∑ jj : Fin 256, f (row j jj) := by
  have h : ∑ p : Fin 32 × Fin 256, f (row p.1 p.2) = ∑ n : Fin 8192, f n :=
    Fintype.sum_equiv (finProdFinEquiv (m := 32) (n := 256)) (fun p => f (row p.1 p.2)) f
      (fun p => congrArg f (Fin.ext (Nat.add_comm _ _)))
  rw [← h]
  exact Fintype.sum_prod_type' (fun j jj => f (row j jj))

/-- The running sum after block n is the sum of the contributions of blocks 0, …, n, by induction on n: the sum
    over Fin (n + 2) is the sum over its first n + 1 indices plus the last term. -/
theorem run_eq_sum (x : SX.Idx → EReal) (adj : SAdj.Idx → EReal) (w : SW.Idx → EReal) (b : Fin 128) (o : Fin 256) :
    ∀ (n : ℕ) (h : n < 32), run x adj w n h b o
      = ∑ j : Fin (n + 1), part x adj w ⟨j.val, lt_of_lt_of_le j.isLt h⟩ b o := by
  intro n
  induction n with
  | zero =>
    intro h
    rw [Fin.sum_univ_one]
    rfl
  | succ n ih =>
    intro h
    rw [Fin.sum_univ_castSucc]
    show run x adj w n (Nat.lt_of_succ_lt h) b o + part x adj w ⟨n + 1, h⟩ b o = _
    rw [ih (Nat.lt_of_succ_lt h)]
    rfl

/-- After the last block the running sum is the convolution. -/
theorem run_last (x : SX.Idx → EReal) (adj : SAdj.Idx → EReal) (w : SW.Idx → EReal) (b : Fin 128) (o : Fin 256) :
    run x adj w 31 (by norm_num) b o = conv x adj w b o := by
  -- the running sum is the sum of all 32 block contributions;
  rw [run_eq_sum x adj w b o 31 (by norm_num)]
  unfold conv
  -- the convolution's row sum, cut into the 32 blocks, is compared with it block by block and row by row,
  rw [sum_rows]
  refine Finset.sum_congr rfl (fun j _ => ?_)
  unfold part
  refine Finset.sum_congr rfl (fun jj _ => ?_)
  -- where the row's aggregate over all columns is its left-half part plus its right-half part.
  rw [sum_cols (fun k => adj (ix2 (row j jj) k) * x (ix2 b k))]

end Cert.GcnSpec

end
-- ==== Proof.IdealValue.lean ====
/-
  The idealized kernel's result array. Row block t of `adj` (both column halves) and of `weight`, read at an entry,
  are the arrays' entries at row 256·t + jj; the feature matrix's window is the whole array. So what the body
  leaves in the output block after point n is, entry by entry, the specification's running sum over the row blocks
  0 … n (by induction on n: the first point stores block 0's contribution, each later point adds its own on the
  right). The output block is the whole result array and is written back once, after the last point: the result
  array ends at the running sum over all 32 blocks, which is the convolution.
-/
import proofs.«143368_g88596585382700_cont_9to1c4b_817_7_alg».proof.Proof.IdealLaunch
import proofs.«143368_g88596585382700_cont_9to1c4b_817_7_alg».proof.Proof.IdealBodyValue
import proofs.«143368_g88596585382700_cont_9to1c4b_817_7_alg».proof.Proof.ConvBlocks

set_option maxRecDepth 16384

noncomputable section

namespace Cert.KernelIdeal.GcnValue

open Idealize.ShloMosaic Idealize.ShloMosaic.TcCoe
open Idealize.SL Idealize.SL.Sem
open Idealize.ShloMosaic.ValueIdx
open Idealize.ShloMosaic.Pipeline (Dat Cfg Window)
open Cert.KernelIdeal Cert.KernelIdeal.Gen Cert.KernelIdeal.Gcn Cert.GcnSpec

variable (m : (ℓ : Loc nD τ sig) → Buf (Elt Ideal) ℓ) (ρ : Dev nD → PrngReg)

/-- The three argument arrays on core `c`. -/
abbrev xArr (c : Dev nD) : SX.Idx → EReal := m ((c : Thread nD τ).loc main_arg0)
abbrev adjArr (c : Dev nD) : SAdj.Idx → EReal := m ((c : Thread nD τ).loc main_arg1)
abbrev wArr (c : Dev nD) : SW.Idx → EReal := m ((c : Thread nD τ).loc main_arg2)

/-- A grid point is one of the 32 row blocks. -/
theorem tlt (t : Fin cfg0.N) : t.val < 32 := lt_of_lt_of_eq t.isLt N_0

/-- The windows' block indices over the grid: `x` and the result stay at block (0, 0); `adj`'s two windows and
    `weight`'s move down one row block per point, `adj`'s right window at column block 1. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 1
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-! ## The input blocks at an entry -/

theorem blk_x (c : Dev nD) (t : Fin cfg0.N) (b : Fin 128) (k : Fin 8192) :
    (iblk m c 0 t : Vec Ideal S128x8192 .f32) (ix2 b k) = xArr m c (ix2 b k) := by
  obtain ⟨e00, e01, -⟩ := idx_facts t
  show V m c main_arg0 (((cfg0.win 0).blk t).view.emb (ix2 b k)) = _
  refine congrArg _ ?_
  funext a; apply Fin.ext
  match a with
  | ⟨0, _⟩ => show win0_0.index t (0 : Fin 2) * 128 + 1 * b.val = b.val; omega
  | ⟨1, _⟩ => show win0_0.index t (1 : Fin 2) * 8192 + 1 * k.val = k.val; omega

theorem blk_adjL (c : Dev nD) (t : Fin cfg0.N) (jj : Fin 256) (k : Fin 4096) :
    (iblk m c 1 t : Vec Ideal S256x4096 .f32) (ix2 jj k) = adjArr m c (ix2 (row ⟨t.val, tlt t⟩ jj) (colL k)) := by
  obtain ⟨-, -, e10, e11, -⟩ := idx_facts t
  show V m c main_arg1 (((cfg0.win 1).blk t).view.emb (ix2 jj k)) = _
  refine congrArg _ ?_
  funext a; apply Fin.ext
  match a with
  | ⟨0, _⟩ => show win0_1.index t (0 : Fin 2) * 256 + 1 * jj.val = 256 * t.val + jj.val; omega
  | ⟨1, _⟩ => show win0_1.index t (1 : Fin 2) * 4096 + 1 * k.val = k.val; omega

theorem blk_adjR (c : Dev nD) (t : Fin cfg0.N) (jj : Fin 256) (k : Fin 4096) :
    (iblk m c 2 t : Vec Ideal S256x4096 .f32) (ix2 jj k) = adjArr m c (ix2 (row ⟨t.val, tlt t⟩ jj) (colR k)) := by
  obtain ⟨-, -, -, -, e20, e21, -⟩ := idx_facts t
  show V m c main_arg1 (((cfg0.win 2).blk t).view.emb (ix2 jj k)) = _
  refine congrArg _ ?_
  funext a; apply Fin.ext
  match a with
  | ⟨0, _⟩ => show win0_2.index t (0 : Fin 2) * 256 + 1 * jj.val = 256 * t.val + jj.val; omega
  | ⟨1, _⟩ => show win0_2.index t (1 : Fin 2) * 4096 + 1 * k.val = 4096 + k.val; omega

theorem blk_w (c : Dev nD) (t : Fin cfg0.N) (jj : Fin 256) (o : Fin 256) :
    (iblk m c 3 t : Vec Ideal S256x256 .f32) (ix2 jj o) = wArr m c (ix2 (row ⟨t.val, tlt t⟩ jj) o) := by
  obtain ⟨-, -, -, -, -, -, e30, e31, -⟩ := idx_facts t
  show V m c main_arg2 (((cfg0.win 3).blk t).view.emb (ix2 jj o)) = _
  refine congrArg _ ?_
  funext a; apply Fin.ext
  match a with
  | ⟨0, _⟩ => show win0_3.index t (0 : Fin 2) * 256 + 1 * jj.val = 256 * t.val + jj.val; omega
  | ⟨1, _⟩ => show win0_3.index t (1 : Fin 2) * 256 + 1 * o.val = o.val; omega

/-- The partial product of point `t`'s four blocks is row block `t`'s contribution. -/
theorem blockPart_blocks (c : Dev nD) (t : Fin cfg0.N) (b : Fin 128) (o : Fin 256) :
    blockPart (iblk m c 0 t : Vec Ideal S128x8192 .f32) (iblk m c 1 t : Vec Ideal S256x4096 .f32)
        (iblk m c 2 t : Vec Ideal S256x4096 .f32) (iblk m c 3 t : Vec Ideal S256x256 .f32) b o
      = part (xArr m c) (adjArr m c) (wArr m c) ⟨t.val, tlt t⟩ b o := by
  unfold blockPart part
  refine Finset.sum_congr rfl fun jj _ => ?_
  rw [blk_w m c t jj o]
  congr 2
  · exact Finset.sum_congr rfl fun k _ => by rw [blk_adjL m c t jj k, blk_x m c t b (colL k)]
  · exact Finset.sum_congr rfl fun k _ => by rw [blk_adjR m c t jj k, blk_x m c t b (colR k)]

/-! ## The output block after each point -/

/-- After point `n` the output block holds, entry by entry, the running sum over the row blocks 0 … n. -/
theorem outsAt_apply (c : Dev nD) : ∀ (n : ℕ) (hn : n < cfg0.N) (b : Fin 128) (o : Fin 256),
    outsAt m c n hn (ix2 b o) = run (xArr m c) (adjArr m c) (wArr m c) n (lt_of_lt_of_eq hn N_0) b o
  | 0, hn, b, o => by
    have h := outsAt_first m c ⟨0, hn⟩ (Nat.zero_mod _)
    refine (congrFun h (ix2 b o)).trans ?_
    refine (outFirst_apply c _ _ _ _ _ _ _ _ _ _ _ _ _ (iblk m c 0 ⟨0, hn⟩) (iblk m c 1 ⟨0, hn⟩) (iblk m c 2 ⟨0, hn⟩) (iblk m c 3 ⟨0, hn⟩) b o).trans ?_
    exact blockPart_blocks m c ⟨0, hn⟩ b o
  | n + 1, hn, b, o => by
    have hN : n + 1 < 32 := lt_of_lt_of_eq hn N_0
    have h0 : ¬ (n + 1) % 32 = 0 := by omega
    have h := outsAt_later m c ⟨n + 1, hn⟩ h0
    refine (congrFun h (ix2 b o)).trans ?_
    refine (outLater_apply c _ _ _ _ _ _ _ _ _ _ _ _ _ (iblk m c 0 ⟨n + 1, hn⟩) (iblk m c 1 ⟨n + 1, hn⟩) (iblk m c 2 ⟨n + 1, hn⟩) (iblk m c 3 ⟨n + 1, hn⟩) _ b o).trans ?_
    show outsAt m c n _ (ix2 b o) + _ = run (xArr m c) (adjArr m c) (wArr m c) n _ b o + part (xArr m c) (adjArr m c) (wArr m c) ⟨n + 1, _⟩ b o
    rw [outsAt_apply c n (Nat.lt_of_succ_lt hn) b o, blockPart_blocks m c ⟨n + 1, hn⟩ b o]

/-! ## The result array -/

/-- The running sum depends on the block count alone. -/
theorem run_congr (x : SX.Idx → EReal) (adj : SAdj.Idx → EReal) (w : SW.Idx → EReal) {n n' : ℕ} (h : n = n')
    (hn : n < 32) (hn' : n' < 32) : run x adj w n hn = run x adj w n' hn' := by subst h; rfl

/-- The one write-back (after the last point) writes the convolution's block. -/
theorem flushed_out (c : Dev nD) (t : Fin cfg0.N) (hf : (cfg0.win 4).flush t = true) :
    (dats m 0 c).flushed 4 t = ((cfg0.win 4).blk t).view.read (Elt Ideal) (G (xArr m c) (adjArr m c) (wArr m c)) := by
  have h31 : t.val = 31 := by have := (flush0_4 t).mp hf; have := tlt t; omega
  obtain ⟨-, -, -, -, -, -, -, -, e40, e41⟩ := idx_facts t
  show (cfg0.win 4).cut (grid0.coords t) ((dats m 0 c).after 4 t) = _
  rw [after_out]
  funext j
  obtain ⟨b, o, rfl⟩ : ∃ (b : Fin 128) (o : Fin 256), j = ix2 b o := ⟨j 0, j 1, eq_ix2 j⟩
  show outsAt m c t.val t.isLt (ix2 b o) = G (xArr m c) (adjArr m c) (wArr m c) (((cfg0.win 4).blk t).view.emb (ix2 b o))
  have he : ((cfg0.win 4).blk t).view.emb (ix2 b o) = (ix2 b o : S128x256.Idx) := by
    funext a; apply Fin.ext
    match a with
    | ⟨0, _⟩ => show win0_4.index t (0 : Fin 2) * 128 + 1 * b.val = b.val; omega
    | ⟨1, _⟩ => show win0_4.index t (1 : Fin 2) * 256 + 1 * o.val = o.val; omega
  rw [he, outsAt_apply m c t.val t.isLt b o,
    run_congr (xArr m c) (adjArr m c) (wArr m c) h31 (lt_of_lt_of_eq t.isLt N_0) (by norm_num), run_last]
  rfl

/-- The output window's block is the whole result array, at every point. -/
theorem mem_out (t : Fin cfg0.N) (i : S128x256.Idx) : i ∈ ((cfg0.win 4).blk t).view.set := by
  obtain ⟨-, -, -, -, -, -, -, -, e40, e41⟩ := idx_facts t
  have hiff : i ∈ ((cfg0.win 4).blk t).view.set ↔ ∀ a : Fin 2, win0_4.index t a * S128x256.size a ≤ (i a).val
      ∧ (i a).val < win0_4.index t a * S128x256.size a + S128x256.size a := by
    show i ∈ ((View.whole main_v0).slice (win0_4.rect t)).set ↔ _
    rw [View.set_slice_whole, Rect.mem_set_unit]
    exact Iff.rfl
  rw [hiff]
  intro a
  match a with
  | ⟨0, _⟩ =>
    show win0_4.index t (0 : Fin 2) * 128 ≤ (i 0).val ∧ (i 0).val < win0_4.index t (0 : Fin 2) * 128 + 128
    have hi : (i 0).val < 128 := idx2_lt0 i
    omega
  | ⟨1, _⟩ =>
    show win0_4.index t (1 : Fin 2) * 256 ≤ (i 1).val ∧ (i 1).val < win0_4.index t (1 : Fin 2) * 256 + 256
    have hi : (i 1).val < 256 := idx2_lt1 i
    omega

/-- The result array after the run is the convolution of the argument arrays. -/
theorem final_out (c : Dev nD) : (dats m 0 c).arrAt 4 cfg0.N = G (xArr m c) (adjArr m c) (wArr m c) :=
  (dats m 0 c).arrAt_eq_of_cover 4 (G (xArr m c) (adjArr m c) (wArr m c)) (fun t hf => flushed_out m c t hf)
    (fun i => ⟨⟨31, lt_of_lt_of_eq (by norm_num) N_0.symm⟩, (flush0_4 _).mpr rfl, mem_out _ i⟩)

/-- Every weakly fair execution of the idealized kernel terminates with its result array at the convolution of
    the argument arrays, the arguments unchanged. -/
theorem run_value : θ_run defs (onTc (τ := τ) (main (F := Ideal))) ⟨m, fun _ => 0, ρ⟩ (fun r => ∀ c : Dev nD,
      r.2.mem ((c.tc : Thread nD τ).loc main_v0) = G (xArr m c) (adjArr m c) (wArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c 4).trans (final_out m c),
     (h c 0).trans (((dats m 0 c).arrAt_in 0 rfl _).trans (A_eq m c 0)),
     (h c 1).trans (((dats m 0 c).arrAt_in 1 rfl _).trans (A_eq m c 1)),
     (h c 3).trans (((dats m 0 c).arrAt_in 3 rfl _).trans (A_eq m c 3))⟩) (run_main m ρ)

end Cert.KernelIdeal.GcnValue

end
-- ==== Proof.RefIsConv.lean ====
/-
  The reference computes the convolution: its two `dot_general`s and two transposes, read one entry at a time,
  are the double sum `Σ_n (Σ_k adj[n, k] · x[b, k]) · w[n, o]` the specification states.
-/
import proofs.«143368_g88596585382700_cont_9to1c4b_817_7_alg».proof.Proof.Spec
import proofs.«143368_g88596585382700_cont_9to1c4b_817_7_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The reference's result term at `Ideal` is the convolution of its three arguments. -/
theorem ref_eq (x : (⟨S128x8192, .f32⟩ : BufTy).Contents (Elt Ideal)) (adj : (⟨S8192x8192, .f32⟩ : BufTy).Contents (Elt Ideal))
    (w : (⟨S8192x256, .f32⟩ : BufTy).Contents (Elt Ideal)) :
    val_main_v3 (F := Ideal) x adj w = Cert.GcnSpec.G x adj w := by
  funext i
  rw [val_main_v3_apply]
  unfold Cert.GcnSpec.G Cert.GcnSpec.conv
  refine Finset.sum_congr rfl fun n _ => ?_
  rw [val_main_v2_apply, val_main_v1_apply]
  -- the outer weight is read at (n, o)
  have hw : ridx_main_v3 i n = ix2 n ⟨(i 1).val, (i 1).isLt⟩ :=
    funext fun a => Fin.ext (by match a with | ⟨0, _⟩ => rfl | ⟨1, _⟩ => rfl)
  rw [hw]
  congr 1
  refine Finset.sum_congr rfl fun k _ => ?_
  rw [val_main_v0_apply]
  -- the adjacency entry is read at (n, k), the feature entry at (b, k)
  have ha : lidx_main_v1 (idx_main_v2 (lidx_main_v3 i n)) k = ix2 n k :=
    funext fun a => Fin.ext (by match a with | ⟨0, _⟩ => rfl | ⟨1, _⟩ => rfl)
  have hx : idx_main_v0 (ridx_main_v1 (idx_main_v2 (lidx_main_v3 i n)) k) = ix2 ⟨(i 0).val, (i 0).isLt⟩ k :=
    funext fun a => Fin.ext (by match a with | ⟨0, _⟩ => rfl | ⟨1, _⟩ => rfl)
  rw [ha, hx]
  rfl

end Cert.ReferenceIdeal.RefValue

end
-- ==== Proof.lean ====
/-
  A graph convolution `out = (adj · xᵀ)ᵀ · weight` over f32[128, 8192], f32[8192, 8192], f32[8192, 256], as ONE
  pipelined kernel on a grid of 32 points against jnp's two matrix products on the host.

  The kernel streams `adj` 256 rows at a time, each row block as two windows on the one array (its left and
  right 4096 columns), together with the matching 256 rows of `weight`; `x` is fetched once. At each point it
  forms t[jj, b] = Σ_{k<4096} adjL[jj, k]·x[b, k] + Σ_{k<4096} adjR[jj, k]·x[b, 4096 + k] and the partial product
  Σ_jj t[jj, b]·weight[jj, o]; the first point stores it over the output block, every later point adds it to what
  the block holds, and the block — the whole result — is written back once, after the last point.

  Read over the extended reals, both programs compute out[b, o] = Σ_n (Σ_k adj[n, k]·x[b, k])·weight[n, o]: the
  kernel only cuts the sum over n into 32 consecutive blocks summed in order and the sum over k in two, which the
  commutative-monoid laws of + allow; no product is distributed and nothing is cancelled, so the precondition's
  finiteness is never used. The kernel's idealization rewrote nothing, so it is preserved trivially.

  The frames of the two kernel programs go through the launch for a pipeline whose windows share an array:
  `adj`'s buffer is dealt to its two windows at half the full share each. The reference's frame is its run with
  the result dropped.
-/
import proofs.«143368_g88596585382700_cont_9to1c4b_817_7_alg».proof.Defs
import proofs.«143368_g88596585382700_cont_9to1c4b_817_7_alg».proof.Proof.Gen.Kernel
import proofs.«143368_g88596585382700_cont_9to1c4b_817_7_alg».proof.Proof.Gen.KernelIdeal
import proofs.«143368_g88596585382700_cont_9to1c4b_817_7_alg».proof.Proof.Gen.ReferenceIdeal
import proofs.«143368_g88596585382700_cont_9to1c4b_817_7_alg».proof.Proof.Gen.Pre_finite_inputs
import proofs.«143368_g88596585382700_cont_9to1c4b_817_7_alg».proof.Proof.Gen.ReferenceIdeal.Run
import proofs.«143368_g88596585382700_cont_9to1c4b_817_7_alg».proof.Proof.Gen.ReferenceIdeal.Read
import proofs.«143368_g88596585382700_cont_9to1c4b_817_7_alg».proof.Proof.BitsLaunch
import proofs.«143368_g88596585382700_cont_9to1c4b_817_7_alg».proof.Proof.IdealValue
import proofs.«143368_g88596585382700_cont_9to1c4b_817_7_alg».proof.Proof.RefIsConv

noncomputable section

namespace Cert.Proof

open Idealize.ShloMosaic Idealize.ShloMosaic.TcCoe Idealize.SL.Sem

/-- The word-level kernel terminates, faults nowhere and leaves its three arguments as they were. -/
theorem frame_kernel : Cert.frame_Kernel := fun m ρ _ => Cert.Kernel.Gcn.frame m ρ

/-- So does its idealization. -/
theorem frame_kernel_ideal : Cert.frame_KernelIdeal := fun m ρ _ => Cert.KernelIdeal.Gcn.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the convolution of arguments that
    agree: one function. -/
theorem algebraic : Cert.algebraic_KernelIdeal_ReferenceIdeal := by
  intro m ρ m' ρ' _ hagree
  refine ⟨fun c => Cert.GcnSpec.G (Cert.KernelIdeal.GcnValue.xArr m c) (Cert.KernelIdeal.GcnValue.adjArr m c) (Cert.KernelIdeal.GcnValue.wArr m c),
    Cert.KernelIdeal.GcnValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
